-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x128 .f32) (main_arg3 : FVec F S128 .f32) (main_arg4 : FVec F S128 .f32) (main_arg5 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 12
  | .vmem => 9
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S10000x128, .bf16⟩
  | .hbm, ⟨11, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x128_S128x128_1_0 : S128x128.Transposes [1, 0] S128x128
  shapeCasts_S128_S1x128 : S128.ShapeCasts S1x128
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S10000x128, .f32⟩
  | .hbm, ⟨7, _⟩ => ⟨S128x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000, .f32⟩
  | .hbm, ⟨14, _⟩ => ⟨S10000x1, .f32⟩
  | .hbm, ⟨15, _⟩ => ⟨S_, .f32⟩
  | .hbm, ⟨16, _⟩ => ⟨S10000x1, .f32⟩
  | .hbm, ⟨17, _⟩ => ⟨S10000x1, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000, .f32⟩
  | .hbm, ⟨23, _⟩ => ⟨S10000x1, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S10000x1, .f32⟩
  | .hbm, ⟨31, _⟩ => ⟨S10000x1, .f32⟩
  | .hbm, ⟨32, _⟩ => ⟨S10000x1, .f32⟩
  | .hbm, ⟨33, _⟩ => ⟨S10000x128, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S_, .f32⟩
  | .hbm, ⟨42, _⟩ => ⟨S10000x128, .f32⟩
  | .hbm, ⟨43, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibRsqrtDiv.lean ====
/-
  Two normalisations of a row by its spread, one law between them, on the extended reals.

  A layer normalisation scales each deviation `d` of a row from its mean by the reciprocal root of
  `v = (mean of the squared deviations) + ε`. One program writes the scaling as the product
  `d · rsqrt v`, the other as the quotient `d / sqrt v`. On the extended reals the two agree for EVERY
  `d` as soon as `0 < v`, the value `v = ⊤` included (there both sides are `d · 0`): no finiteness of
  the row is needed. And `v` is positive whatever the row holds, because a square is nonnegative on
  the extended reals (`⊥ · ⊥ = ⊤ · ⊤ = ⊤`), a sum of nonnegatives is nonnegative, division by a positive
  real keeps the sign, and `ε` is positive.
-/
import Idealize.ShloMosaic.PureOps.Ideal
import Idealize.ShloMosaic.PureOps.Ideal.Laws

noncomputable section

namespace Cert.LibRsqrtDiv

open Idealize.ShloMosaic

/-- A square is nonnegative on the extended reals: both factors lie on the same side of zero. -/
theorem mul_self_nonneg (a : EReal) : 0 ≤ a * a :=
  EReal.mul_nonneg_iff.2 ((le_total 0 a).imp (fun h => ⟨h, h⟩) (fun h => ⟨h, h⟩))

/-- The quotient of a nonnegative extended real by a positive real is nonnegative: it is the product
    with the positive real `1 / n`. -/
theorem div_coe_nonneg {x : EReal} (hx : 0 ≤ x) {n : ℝ} (hn : 0 < n) : 0 ≤ Ideal.div x (n : EReal) := by
  rw [Ideal.div_coe hn.ne']
  exact EReal.mul_nonneg hx (EReal.coe_nonneg.2 (by positivity))

/-- The mean of the squares of any family of extended reals, shifted by a positive `e`, is positive. -/
theorem meanSq_add_pos {ι : Type} [Fintype ι] (d : ι → EReal) {n : ℝ} (hn : 0 < n) {e : EReal} (he : 0 < e) :
    0 < Ideal.div (∑ c, d c * d c) (n : EReal) + e :=
  he.trans_le (le_add_of_nonneg_left (div_coe_nonneg (Finset.sum_nonneg fun c _ => mul_self_nonneg (d c)) hn))

/-- THE LAW. For `0 < v` — a positive real, or `⊤` — the product with the reciprocal root is the
    quotient by the root, for every extended real `x`: at a real `v` both are `x · (√v)⁻¹`, at `⊤` both
    are `x · 0`. -/
theorem mul_rsqrt_eq_div_sqrt (x : EReal) {v : EReal} (hv : 0 < v) :
    x * Ideal.rsqrt v = Ideal.div x (Ideal.sqrt v) := by
  induction v using EReal.rec with
  | bot => exact absurd hv (not_lt.2 bot_le)
  | top => rw [Ideal.rsqrt_top, Ideal.sqrt_top, Ideal.div, if_neg EReal.top_ne_zero, EReal.inv_top]
  | coe r =>
    have hr : 0 < r := EReal.coe_pos.1 hv
    have hs : Real.sqrt r ≠ 0 := (Real.sqrt_pos.2 hr).ne'
    rw [Ideal.rsqrt_coe, if_neg (not_lt.2 hr.le), if_neg hr.ne', Ideal.sqrt_coe, if_neg (not_lt.2 hr.le),
      Ideal.div_coe hs, one_div]

end Cert.LibRsqrtDiv

end
-- ==== Proof.GraphConvSpec.lean ====
/-
  The graph convolution layer as ONE function of its six argument arrays, index by index, on the
  extended reals.

  For the dense adjacency `A` [10000, 10000], the features `X` [10000, 128], the linear layer's weight
  `W` [128 out, 128 in] and bias `b`, and the normalisation's scale `g` and shift `bt`:
    y[r, c]   = Σ_k (Σ_l A[r, l] · X[l, k]) · W[c, k] + b[c]        (aggregate, then project)
    mean[r]   = (Σ_c y[r, c]) / 128
    d[r, c]   = y[r, c] − mean[r]
    spread[r] = (Σ_c d[r, c]²) / 128 + ε                             (ε the f32 nearest 1e-5)
    out[r, c] = max (d[r, c] · rsqrt spread[r] · g[c] + bt[c]) 0
  Each row is normalised by itself, so the row part is stated once over a row `y : Fin 128 → EReal`.
  The last line is written with the reciprocal root; written with the quotient by the root it is the
  same function, because the spread is positive (the law of LibRsqrtDiv).
-/
import Idealize.ShloMosaic.Lib.ValueIdx
import proofs.«101320_g33552284516567_cont_8to1_b_1807_12_alg».proof.Proof.LibRsqrtDiv

noncomputable section

namespace Cert.GraphConvSpec

open Idealize.ShloMosaic Idealize.ShloMosaic.ValueIdx

/-- The row length as both programs spell it: the f32 pattern of `128.0`. -/
abbrev n128 : EReal := Ideal.ofBits .f32 0x43000000#32
/-- The shift under the root as both programs spell it: the f32 pattern nearest `1e-5`. -/
abbrev eps : EReal := Ideal.ofBits .f32 0x3727C5AC#32

/-- The pattern of `128.0` denotes the real `128`. -/
theorem n128_eq : n128 = ((128 : ℝ) : EReal) := by
  simp [n128, Ideal.ofBits, Ideal.ieee, -EReal.coe_mul]; norm_num

/-- The pattern nearest `1e-5` denotes a positive real: a positive significand times a power of two. -/
theorem eps_pos : 0 < eps := by
  simp [eps, Ideal.ofBits, Ideal.ieee, -EReal.coe_mul]

section Row
variable (y : Fin 128 → EReal)

/-- A row's mean. -/
def rowMean : EReal := Ideal.div (∑ c, y c) n128
/-- A row's deviations from its mean. -/
def rowDev (c : Fin 128) : EReal := y c - rowMean y
/-- The mean of the squared deviations, shifted by `ε`. -/
def rowSpread : EReal := Ideal.div (∑ c, rowDev y c * rowDev y c) n128 + eps

/-- The spread is positive, whatever the row holds. -/
theorem rowSpread_pos : 0 < rowSpread y := by
  unfold rowSpread
  rw [n128_eq]
  exact Cert.LibRsqrtDiv.meanSq_add_pos (rowDev y) (by norm_num) eps_pos

/-- The normalised, scaled, shifted and rectified row, the scaling written as a product with the
    reciprocal root. -/
def normByRsqrt (g bt : Fin 128 → EReal) (c : Fin 128) : EReal :=
  max (rowDev y c * Ideal.rsqrt (rowSpread y) * g c + bt c) 0
/-- The same with the scaling written as a quotient by the root. -/
def normByDivSqrt (g bt : Fin 128 → EReal) (c : Fin 128) : EReal :=
  max (Ideal.div (rowDev y c) (Ideal.sqrt (rowSpread y)) * g c + bt c) 0

/-- The two spellings are one function: the spread is positive. -/
theorem normByDivSqrt_eq (g bt : Fin 128 → EReal) (c : Fin 128) :
    normByDivSqrt y g bt c = normByRsqrt y g bt c := by
  unfold normByDivSqrt normByRsqrt
  rw [Cert.LibRsqrtDiv.mul_rsqrt_eq_div_sqrt (rowDev y c) (rowSpread_pos y)]

end Row

/-- Row `r`, column `c` of the aggregated and projected features: `(A X) Wᵀ + b`. -/
def lin (A : (⟨2, ![10000, 10000]⟩ : Shape).Idx → EReal) (X : (⟨2, ![10000, 128]⟩ : Shape).Idx → EReal)
    (W : (⟨2, ![128, 128]⟩ : Shape).Idx → EReal) (b : (⟨1, ![128]⟩ : Shape).Idx → EReal)
    (r : Fin 10000) (c : Fin 128) : EReal :=
  (∑ k : Fin 128, (∑ l : Fin 10000, A (ix2 r l) * X (ix2 l k)) * W (ix2 c k)) + b (ix1 c)

/-- THE SPECIFICATION at row `r`, column `c`. -/
def outAt (A : (⟨2, ![10000, 10000]⟩ : Shape).Idx → EReal) (X : (⟨2, ![10000, 128]⟩ : Shape).Idx → EReal)
    (W : (⟨2, ![128, 128]⟩ : Shape).Idx → EReal) (b g bt : (⟨1, ![128]⟩ : Shape).Idx → EReal)
    (r : Fin 10000) (c : Fin 128) : EReal :=
  normByRsqrt (lin A X W b r) (fun c => g (ix1 c)) (fun c => bt (ix1 c)) c

/-- THE SPECIFICATION as an array [10000, 128]. -/
def G (A : (⟨2, ![10000, 10000]⟩ : Shape).Idx → EReal) (X : (⟨2, ![10000, 128]⟩ : Shape).Idx → EReal)
    (W : (⟨2, ![128, 128]⟩ : Shape).Idx → EReal) (b g bt : (⟨1, ![128]⟩ : Shape).Idx → EReal) :
    (⟨2, ![10000, 128]⟩ : Shape).Idx → EReal :=
  fun i => outAt A X W b g bt (i 0) (i 1)

theorem G_ix2 (A : (⟨2, ![10000, 10000]⟩ : Shape).Idx → EReal) (X : (⟨2, ![10000, 128]⟩ : Shape).Idx → EReal)
    (W : (⟨2, ![128, 128]⟩ : Shape).Idx → EReal) (b g bt : (⟨1, ![128]⟩ : Shape).Idx → EReal)
    (r : Fin 10000) (c : Fin 128) : G A X W b g bt (ix2 r c) = outAt A X W b g bt r c := rfl

end Cert.GraphConvSpec

end
-- ==== Proof.GraphConvRef.lean ====
/-
  The reference computes the specification.

  Read at row `r`, column `c`, the reference's operations compose, one by one, to the formulas of
  GraphConvSpec: the two `dot_general`s and the bias to `lin`, the row sum over 128 divided by 128 to
  `rowMean`, the row sum of the squared deviations divided by 128 and shifted by ε to `rowSpread`, and
  the quotient by the root, scaled, shifted and rectified, to `normByDivSqrt` — which is the
  specification's `normByRsqrt` because the spread is positive.
-/
import proofs.«101320_g33552284516567_cont_8to1_b_1807_12_alg».proof.Proof.Gen.ReferenceIdeal.Read
import proofs.«101320_g33552284516567_cont_8to1_b_1807_12_alg».proof.Proof.GraphConvSpec

noncomputable section

namespace Cert.GraphConvRef

open Idealize.ShloMosaic Idealize.ShloMosaic.ValueIdx
open Cert.ReferenceIdeal Cert.ReferenceIdeal.Read Cert.GraphConvSpec

/-- Two rank-2 indices with the same coordinates are equal. -/
local macro "idx2" : tactic => `(tactic| (funext a; match a with | ⟨0, _⟩ => rfl | ⟨1, _⟩ => rfl))
/-- Two rank-1 indices with the same coordinate are equal. -/
local macro "idx1" : tactic => `(tactic| (funext a; match a with | ⟨0, _⟩ => rfl))

variable (A : (⟨S10000x10000, .f32⟩ : BufTy).Contents (Elt Ideal)) (X : (⟨S10000x128, .f32⟩ : BufTy).Contents (Elt Ideal))
  (W : (⟨S128x128, .f32⟩ : BufTy).Contents (Elt Ideal)) (b g bt : (⟨S128, .f32⟩ : BufTy).Contents (Elt Ideal))

/-- The linear layer: `(A X) Wᵀ + b` at `(r, c)`. -/
theorem ref_lin (r : Fin 10000) (c : Fin 128) :
    val_main_v5 (F := Ideal) A X W b (ix2 r c) = lin A X W b r c := by
  rw [val_main_v5_apply, val_main_v2_apply, val_main_v4_apply, val_main_v3_apply]
  unfold lin
  refine congrArg₂ (fun u v : EReal => u + v) (Finset.sum_congr rfl fun k _ => ?_) (congrArg b (by idx1))
  rw [val_main_v0_apply, val_main_v1_apply]
  refine congrArg₂ (fun u v : EReal => u * v) (Finset.sum_congr rfl fun l _ => ?_) (congrArg W (by idx2))
  exact congrArg₂ (fun u v : EReal => u * v) (congrArg A (by idx2)) (congrArg X (by idx2))

/-- The row's mean, kept as a column [10000, 1]. -/
theorem ref_mean (r : Fin 10000) (z : Fin 1) :
    val_main_v9 (F := Ideal) A X W b (ix2 r z) = rowMean (lin A X W b r) := by
  rw [val_main_v9_apply, val_main_v7_apply, val_main_v6_apply, val_main_v8_apply, val_main_cst_0_apply, val_main_cst_apply]
  unfold rowMean
  show Ideal.div (Ideal.ofBits .f32 0x00000000#32 + _) n128 = _
  rw [Ideal.ofBits_zero_f32, zero_add]
  refine congrArg (fun u : EReal => Ideal.div u n128) (Finset.sum_congr rfl fun k _ => ?_)
  exact (congrArg (val_main_v5 (F := Ideal) A X W b) (by idx2)).trans (ref_lin A X W b r k)

/-- The deviation from the mean at `(r, c)` (the reference computes it twice, the same way). -/
theorem ref_dev11 (r : Fin 10000) (c : Fin 128) :
    val_main_v11 (F := Ideal) A X W b (ix2 r c) = rowDev (lin A X W b r) c := by
  rw [val_main_v11_apply, val_main_v10_apply, ref_lin]
  unfold rowDev
  exact congrArg (fun u : EReal => lin A X W b r c - u)
    ((congrArg (val_main_v9 (F := Ideal) A X W b) (show idx_main_v10 (ix2 r c) = ix2 r (0 : Fin 1) by idx2)).trans (ref_mean A X W b r 0))

theorem ref_dev18 (r : Fin 10000) (c : Fin 128) :
    val_main_v18 (F := Ideal) A X W b (ix2 r c) = rowDev (lin A X W b r) c := by
  rw [val_main_v18_apply, val_main_v17_apply, ref_lin]
  unfold rowDev
  exact congrArg (fun u : EReal => lin A X W b r c - u)
    ((congrArg (val_main_v9 (F := Ideal) A X W b) (show idx_main_v17 (ix2 r c) = ix2 r (0 : Fin 1) by idx2)).trans (ref_mean A X W b r 0))

/-- The shifted mean of the squared deviations, kept as a column. -/
theorem ref_spread (r : Fin 10000) (z : Fin 1) :
    val_main_v20 (F := Ideal) A X W b (ix2 r z) = rowSpread (lin A X W b r) := by
  rw [val_main_v20_apply, val_main_v16_apply, val_main_v14_apply, val_main_v13_apply, val_main_v15_apply, val_main_v19_apply,
    val_main_cst_1_apply, val_main_cst_2_apply, val_main_cst_3_apply]
  unfold rowSpread
  show Ideal.div (Ideal.ofBits .f32 0x00000000#32 + _) n128 + eps = _
  rw [Ideal.ofBits_zero_f32, zero_add]
  refine congrArg (fun u : EReal => Ideal.div u n128 + eps) (Finset.sum_congr rfl fun k _ => ?_)
  rw [val_main_v12_apply]
  have h := (congrArg (val_main_v11 (F := Ideal) A X W b) (show idx_main_v13 (idx_main_v14 (ix2 r z)) k = ix2 r k by idx2)).trans (ref_dev11 A X W b r k)
  exact congrArg₂ (fun u v : EReal => u * v) h h

/-- THE REFERENCE'S RESULT is the specification. -/
theorem ref_eq_G : val_main_v31 (F := Ideal) A X W b g bt = G A X W b g bt := by
  funext i
  obtain ⟨r, c, rfl⟩ : ∃ (r : Fin 10000) (c : Fin 128), i = ix2 r c := ⟨i 0, i 1, eq_ix2 i⟩
  rw [G_ix2]
  unfold outAt
  rw [← normByDivSqrt_eq]
  unfold normByDivSqrt
  rw [val_main_v31_apply, val_main_v29_apply, val_main_v26_apply, val_main_v23_apply, val_main_v22_apply, val_main_v21_apply,
    val_main_v25_apply, val_main_v24_apply, val_main_v28_apply, val_main_v27_apply, val_main_v30_apply, val_main_cst_4_apply, ref_dev18]
  have hs := (congrArg (val_main_v20 (F := Ideal) A X W b) (show idx_main_v22 (ix2 r c) = ix2 r (0 : Fin 1) by idx2)).trans (ref_spread A X W b r 0)
  rw [hs]
  show max (Ideal.div _ (Ideal.sqrt _) * g _ + bt _) (Ideal.ofBits .f32 0x00000000#32) = _
  rw [Ideal.ofBits_zero_f32]
  exact congrArg₂ (fun u v : EReal => max (Ideal.div (rowDev (lin A X W b r) c) (Ideal.sqrt (rowSpread (lin A X W b r))) * u + v) 0)
    (congrArg g (by idx1)) (congrArg bt (by idx1))

end Cert.GraphConvRef

end
-- ==== Proof.LibKeepdimsColumn.lean ====
/-
  A row reduction kept as a column, read at an index.

  A sum along the last axis with the axis kept (`keepdims`) is stored as a column `[a, 1]`: the
  reduced vector `[a]` cast to `[a, 1]`, and later broadcast back over the `b` columns of `[a, b]`.
  At `(p, u)` the cast reads the vector at `p` (row-major position `p · 1 + u = p`, the unit coordinate
  being `0`); at `(p, c)` the broadcast reads the column at `(p, 0)`.
-/
import Idealize.ShloMosaic.Lib.Pipeline.Value
import Idealize.ShloMosaic.Lib.ValueIdx

noncomputable section

namespace Cert.LibKeepdimsColumn

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsColumn

end
-- ==== Proof.GraphConvBlock.lean ====
/-
  What the kernel's body computes on one block of 400 rows, index by index.

  The body multiplies its block of the adjacency [400, 10000] by the whole feature matrix, projects
  through the transposed weight and adds the bias, then normalises each of its 400 rows by that row's
  own mean and spread, scales, shifts and rectifies. Rows never mix, so at local row `p`, column `q` the
  body's result is the specification's row normalisation (GraphConvSpec `normByRsqrt`) of the row
    c ↦ Σ_k (Σ_l a[p, l] · x[l, k]) · wt[k, c] + b2[0, c]
  of the block's own operands. The body's text is cut into stages (aggregate; project and add the
  bias; mean column; deviations; spread column; output), the payload IS their composition, and each
  stage is read at an index: a matrix product into a zero accumulator as a sum over the contracted
  axis, a lane sum kept as a column as a sum over the 128 lanes, a column or row broadcast as the one
  entry it repeats.
-/
import proofs.«101320_g33552284516567_cont_8to1_b_1807_12_alg».proof.Proof.Gen.KernelIdeal.Skeleton
import proofs.«101320_g33552284516567_cont_8to1_b_1807_12_alg».proof.Proof.GraphConvSpec
import proofs.«101320_g33552284516567_cont_8to1_b_1807_12_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

namespace Cert.GraphConvBlock

open Idealize.ShloMosaic Idealize.ShloMosaic.ValueIdx
open Cert.KernelIdeal Cert.KernelIdeal.Gen Cert.GraphConvSpec

/-- Two rank-2 indices with the same coordinates are equal. -/
local macro "idx2" : tactic => `(tactic| (funext a; match a with | ⟨0, _⟩ => exact Fin.ext rfl | ⟨1, _⟩ => exact Fin.ext rfl))

/-! ## The body's stages -/

/-- The block of the adjacency times the features. -/
def aggBlk (a : FVec Ideal S400x10000 .f32) (x : FVec Ideal S10000x128 .bf16) : FVec Ideal S400x128 .f32 :=
  matmul dot_S400x10000_S10000x128_S400x128_1_0_0_1_n_n none a
    (extf .f32 (shapeCast S10000x128 x shapeCasts_S10000x128_S10000x128) bitsLt_bf16_f32) (constant S400x128 .f32 0x00000000#32)

/-- Projected through the transposed weight, the bias row added to every row. -/
def linBlkV (a : FVec Ideal S400x10000 .f32) (x : FVec Ideal S10000x128 .bf16) (wt : FVec Ideal S128x128 .f32)
    (b2 : FVec Ideal S1x128 .f32) : FVec Ideal S400x128 .f32 :=
  addf (matmul dot_S400x128_S128x128_S400x128_1_0_0_1_n_n none (aggBlk a x) (shapeCast S128x128 wt shapeCasts_S128x128_S128x128) (constant S400x128 .f32 0x00000000#32))
    (broadcastTo S400x128 (shapeCast S1x128 b2 shapeCasts_S1x128_S1x128) broadcasts_S1x128_S400x128)

/-- Each row's mean, as a column. -/
def meanCol (y : FVec Ideal S400x128 .f32) : FVec Ideal S400x1 .f32 :=
  divf (shapeCast S400x1 (multiReduction .add [1] S400 y 0x00000000#32 reduces_S400x128_S400 (.inl rfl) rfl) shapeCasts_S400_S400x1)
    (broadcast S400x1 (Scalar.ofBits .f32 0x43000000#32))

/-- Each entry's deviation from its row's mean. -/
def devBlk (y : FVec Ideal S400x128 .f32) : FVec Ideal S400x128 .f32 :=
  subf y (broadcastTo S400x128 (meanCol y) broadcasts_S400x1_S400x128)

/-- Each row's mean squared deviation shifted by ε, as a column. -/
def spreadCol (d : FVec Ideal S400x128 .f32) : FVec Ideal S400x1 .f32 :=
  addf (divf (shapeCast S400x1 (multiReduction .add [1] S400 (mulf d d) 0x00000000#32 reduces_S400x128_S400 (.inl rfl) rfl) shapeCasts_S400_S400x1)
      (broadcast S400x1 (Scalar.ofBits .f32 0x43000000#32)))
    (broadcast S400x1 (Scalar.ofBits .f32 0x3727C5AC#32))

/-- Deviations times the reciprocal root of the spread, scaled, shifted, rectified. -/
def outBlk (d : FVec Ideal S400x128 .f32) (s : FVec Ideal S400x1 .f32) (g2 bt2 : FVec Ideal S1x128 .f32) : FVec Ideal S400x128 .f32 :=
  maximumf (addf (mulf (mulf d (broadcastTo S400x128 (rsqrt s) broadcasts_S400x1_S400x128))
        (broadcastTo S400x128 (shapeCast S1x128 g2 shapeCasts_S1x128_S1x128) broadcasts_S1x128_S400x128))
      (broadcastTo S400x128 (shapeCast S1x128 bt2 shapeCasts_S1x128_S1x128) broadcasts_S1x128_S400x128))
    (broadcast S400x128 (Scalar.ofBits .f32 0x00000000#32))

/-- The body's payload is the composition of the stages. -/
theorem pay_eq_stages (a : FVec Ideal S400x10000 .f32) (x : FVec Ideal S10000x128 .bf16) (wt : FVec Ideal S128x128 .f32)
    (b2 g2 bt2 : FVec Ideal S1x128 .f32) :
    k0_pay1 (F := Ideal) a x wt b2 g2 bt2
      = outBlk (devBlk (linBlkV a x wt b2)) (spreadCol (devBlk (linBlkV a x wt b2))) g2 bt2 := rfl

/-! ## The two matrix products at an index

  Each is the sum over its one contracted axis; the operand indices at output `(p, c)` and contraction
  coordinate `l` are `(p, l)` and `(l, c)`. -/

theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem lhs_proj_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_proj_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_proj_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_proj_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The aggregation at `(p, c)`: the sum over the 10000 nodes. -/
theorem agg_mm_apply (a : FVec Ideal S400x10000 .f32) (x : FVec Ideal S10000x128 .f32) (p : Fin 400) (c : Fin 128) :
    matmul dot_S400x10000_S10000x128_S400x128_1_0_0_1_n_n none a x (constant S400x128 .f32 0x00000000#32) (ix2 p c)
      = ∑ l : Fin 10000, a (ix2 p l) * x (ix2 l c) := by
  simp only [matmul]
  rw [Ideal.matmul_constant_zero_apply, ← Equiv.sum_comp (contrEquiv1 dot_S400x10000_S10000x128_S400x128_1_0_0_1_n_n 10000 rfl rfl).symm]
  refine Finset.sum_congr rfl fun l _ => ?_
  have hk := contrEquiv1_symm_val dot_S400x10000_S10000x128_S400x128_1_0_0_1_n_n 10000 rfl rfl l
  have el : dot_S400x10000_S10000x128_S400x128_1_0_0_1_n_n.lhsIdx (ix2 p c) ((contrEquiv1 dot_S400x10000_S10000x128_S400x128_1_0_0_1_n_n 10000 rfl rfl).symm l) = ix2 p l := funext fun ax => Fin.ext (by
    match ax with
    | ⟨0, _⟩ => exact lhs_agg_0 _ _
    | ⟨1, _⟩ => exact (lhs_agg_1 _ _).trans hk)
  have er : dot_S400x10000_S10000x128_S400x128_1_0_0_1_n_n.rhsIdx (ix2 p c) ((contrEquiv1 dot_S400x10000_S10000x128_S400x128_1_0_0_1_n_n 10000 rfl rfl).symm l) = ix2 l c := funext fun ax => Fin.ext (by
    match ax with
    | ⟨0, _⟩ => exact (rhs_agg_0 _ _).trans hk
    | ⟨1, _⟩ => exact rhs_agg_1 _ _)
  rw [el, er]

/-- The projection at `(p, c)`: the sum over the 128 input features. -/
theorem proj_mm_apply (h : FVec Ideal S400x128 .f32) (w : FVec Ideal S128x128 .f32) (p : Fin 400) (c : Fin 128) :
    matmul dot_S400x128_S128x128_S400x128_1_0_0_1_n_n none h w (constant S400x128 .f32 0x00000000#32) (ix2 p c)
      = ∑ l : Fin 128, h (ix2 p l) * w (ix2 l c) := by
  simp only [matmul]
  rw [Ideal.matmul_constant_zero_apply, ← Equiv.sum_comp (contrEquiv1 dot_S400x128_S128x128_S400x128_1_0_0_1_n_n 128 rfl rfl).symm]
  refine Finset.sum_congr rfl fun l _ => ?_
  have hk := contrEquiv1_symm_val dot_S400x128_S128x128_S400x128_1_0_0_1_n_n 128 rfl rfl l
  have el : dot_S400x128_S128x128_S400x128_1_0_0_1_n_n.lhsIdx (ix2 p c) ((contrEquiv1 dot_S400x128_S128x128_S400x128_1_0_0_1_n_n 128 rfl rfl).symm l) = ix2 p l := funext fun ax => Fin.ext (by
    match ax with
    | ⟨0, _⟩ => exact lhs_proj_0 _ _
    | ⟨1, _⟩ => exact (lhs_proj_1 _ _).trans hk)
  have er : dot_S400x128_S128x128_S400x128_1_0_0_1_n_n.rhsIdx (ix2 p c) ((contrEquiv1 dot_S400x128_S128x128_S400x128_1_0_0_1_n_n 128 rfl rfl).symm l) = ix2 l c := funext fun ax => Fin.ext (by
    match ax with
    | ⟨0, _⟩ => exact (rhs_proj_0 _ _).trans hk
    | ⟨1, _⟩ => exact rhs_proj_1 _ _)
  rw [el, er]

/-! ## The stages at an index -/

theorem aggBlk_apply (a : FVec Ideal S400x10000 .f32) (x : FVec Ideal S10000x128 .bf16) (p : Fin 400) (k : Fin 128) :
    aggBlk a x (ix2 p k) = ∑ l : Fin 10000, a (ix2 p l) * x (ix2 l k) := by
  unfold aggBlk
  rw [shapeCast_self]
  exact agg_mm_apply a (extf .f32 x bitsLt_bf16_f32) p k

/-- Row `p` of the block's projected features, as a row of 128. -/
def linRow (a : FVec Ideal S400x10000 .f32) (x : FVec Ideal S10000x128 .bf16) (wt : FVec Ideal S128x128 .f32)
    (b2 : FVec Ideal S1x128 .f32) (p : Fin 400) (c : Fin 128) : EReal :=
  (∑ k : Fin 128, (∑ l : Fin 10000, a (ix2 p l) * x (ix2 l k)) * wt (ix2 k c)) + b2 (ix2 (0 : Fin 1) c)

theorem linBlkV_apply (a : FVec Ideal S400x10000 .f32) (x : FVec Ideal S10000x128 .bf16) (wt : FVec Ideal S128x128 .f32)
    (b2 : FVec Ideal S1x128 .f32) (p : Fin 400) (c : Fin 128) :
    linBlkV a x wt b2 (ix2 p c) = linRow a x wt b2 p c := by
  unfold linBlkV linRow
  rw [shapeCast_self, shapeCast_self]
  refine congrArg₂ (fun u v : EReal => u + v) ?_ (broadcastTo_1b_ab_apply b2 broadcasts_S1x128_S400x128 p c)
  refine (proj_mm_apply (aggBlk a x) wt p c).trans (Finset.sum_congr rfl fun k _ => ?_)
  rw [aggBlk_apply]

/-- A lane sum kept as a column: the sum over the 128 lanes of row `p`. -/
theorem rowSum_apply (v : FVec Ideal S400x128 .f32) (p : Fin 400) (u : Fin 1) :
    shapeCast S400x1 (multiReduction .add [1] S400 v 0x00000000#32 reduces_S400x128_S400 (.inl rfl) rfl) shapeCasts_S400_S400x1 (ix2 p u)
      = ∑ k : Fin 128, v (ix2 p k) := by
  refine (Cert.LibKeepdimsColumn.shapeCast_a_a1_apply _ shapeCasts_S400_S400x1 p u).trans ?_
  refine (Ideal.multiReduction_add_single v 0x00000000#32 reduces_S400x128_S400 (.inl rfl) rfl (ix1 p)).trans ?_
  exact Finset.sum_congr rfl fun k _ => congrArg v (by idx2)

theorem meanCol_apply (y : FVec Ideal S400x128 .f32) (p : Fin 400) (u : Fin 1) :
    meanCol y (ix2 p u) = rowMean (fun c => y (ix2 p c)) := by
  unfold meanCol rowMean
  exact congrArg (fun s : EReal => Ideal.div s n128) (rowSum_apply y p u)

theorem devBlk_apply (y : FVec Ideal S400x128 .f32) (p : Fin 400) (c : Fin 128) :
    devBlk y (ix2 p c) = rowDev (fun c => y (ix2 p c)) c := by
  unfold devBlk rowDev
  refine congrArg (fun s : EReal => y (ix2 p c) - s) ?_
  exact (Cert.LibKeepdimsColumn.broadcastTo_a1_ab_apply (meanCol y) broadcasts_S400x1_S400x128 p c).trans (meanCol_apply y p 0)

theorem spreadCol_apply (y : FVec Ideal S400x128 .f32) (p : Fin 400) (u : Fin 1) :
    spreadCol (devBlk y) (ix2 p u) = rowSpread (fun c => y (ix2 p c)) := by
  unfold spreadCol rowSpread
  refine congrArg (fun s : EReal => Ideal.div s n128 + eps) ?_
  refine (rowSum_apply (mulf (devBlk y) (devBlk y)) p u).trans (Finset.sum_congr rfl fun k _ => ?_)
  exact congrArg₂ (fun s t : EReal => s * t) (devBlk_apply y p k) (devBlk_apply y p k)

theorem outBlk_apply (d : FVec Ideal S400x128 .f32) (s : FVec Ideal S400x1 .f32) (g2 bt2 : FVec Ideal S1x128 .f32)
    (p : Fin 400) (q : Fin 128) :
    outBlk d s g2 bt2 (ix2 p q)
      = max (d (ix2 p q) * Ideal.rsqrt (s (ix2 p (0 : Fin 1))) * g2 (ix2 (0 : Fin 1) q) + bt2 (ix2 (0 : Fin 1) q)) 0 := by
  unfold outBlk
  rw [shapeCast_self, shapeCast_self]
  show max (d (ix2 p q) * _ * _ + _) (Ideal.ofBits .f32 0x00000000#32) = _
  rw [Ideal.ofBits_zero_f32, Cert.LibKeepdimsColumn.broadcastTo_a1_ab_apply (rsqrt s) broadcasts_S400x1_S400x128 p q,
    broadcastTo_1b_ab_apply g2 broadcasts_S1x128_S400x128 p q, broadcastTo_1b_ab_apply bt2 broadcasts_S1x128_S400x128 p q]
  rfl

/-- THE BODY'S RESULT at local row `p`, column `q`: the specification's normalisation of row `p` of the
    block's projected features. -/
theorem pay_apply (a : FVec Ideal S400x10000 .f32) (x : FVec Ideal S10000x128 .bf16) (wt : FVec Ideal S128x128 .f32)
    (b2 g2 bt2 : FVec Ideal S1x128 .f32) (p : Fin 400) (q : Fin 128) :
    k0_pay1 (F := Ideal) a x wt b2 g2 bt2 (ix2 p q)
      = normByRsqrt (linRow a x wt b2 p) (fun c => g2 (ix2 (0 : Fin 1) c)) (fun c => bt2 (ix2 (0 : Fin 1) c)) q := by
  rw [pay_eq_stages, outBlk_apply, devBlk_apply, spreadCol_apply]
  have hrow : (fun c => linBlkV a x wt b2 (ix2 p c)) = linRow a x wt b2 p := funext fun c => linBlkV_apply a x wt b2 p c
  rw [hrow]
  rfl

end Cert.GraphConvBlock

end
-- ==== Proof.GraphConvArray.lean ====
/-
  From blocks to the array: the kernel's result array is the specification.

  The grid has 25 points; point `t` stages rows `400 t … 400 t + 399` of the adjacency, the whole of
  every other operand, and writes back rows `400 t … 400 t + 399` of the result. The other operands
  are host-made views of the arguments: the features converted to bf16 (the identity on the extended
  reals), the weight transposed, and the bias, scale and shift reshaped to one row. So local row `p`
  of point `t` is row `r = 400 t + p` of the arrays, the block's projected row is the
  specification's `lin … r`, and what point `t` writes back is block `t` of the specification `G` of
  the arguments. The 25 row blocks cover the array (row `r` lies in block `r / 400`), so the array
  ends holding `G`.
-/
import proofs.«101320_g33552284516567_cont_8to1_b_1807_12_alg».proof.Proof.Gen.KernelIdeal.Value
import proofs.«101320_g33552284516567_cont_8to1_b_1807_12_alg».proof.Proof.GraphConvBlock
import Idealize.ShloMosaic.Lib.StableHlo.Run
import Idealize.ShloMosaic.Lib.Pipeline.Value
import Idealize.ShloMosaic.Lib.ValueLayout

noncomputable section

namespace Cert.GraphConvArray

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Value Cert.GraphConvSpec Cert.GraphConvBlock

variable (m : (ℓ : Loc nD τ sig) → Buf (Elt Ideal) ℓ) (ρ : Dev nD → PrngReg)

/-! ## The arguments, by their literal types -/

abbrev argA (c : Dev nD) : FVec Ideal S10000x10000 .f32 := m ((c : Thread nD τ).loc main_arg0)
abbrev argX (c : Dev nD) : FVec Ideal S10000x128 .f32 := m ((c : Thread nD τ).loc main_arg1)
abbrev argW (c : Dev nD) : FVec Ideal S128x128 .f32 := m ((c : Thread nD τ).loc main_arg2)
abbrev argB (c : Dev nD) : FVec Ideal S128 .f32 := m ((c : Thread nD τ).loc main_arg3)
abbrev argG (c : Dev nD) : FVec Ideal S128 .f32 := m ((c : Thread nD τ).loc main_arg4)
abbrev argBt (c : Dev nD) : FVec Ideal S128 .f32 := m ((c : Thread nD τ).loc main_arg5)

/-- The specification of the arguments core `c` was launched with. -/
abbrev result (c : Dev nD) : FVec Ideal S10000x128 .f32 :=
  G (argA m c) (argX m c) (argW m c) (argB m c) (argG m c) (argBt m c)

/-! ## The index maps over the grid -/

theorem hz : (![0, 0] : Fin 2 → Nat) = fun _ => 0 := funext fun a => by fin_cases a <;> rfl

/-- The adjacency's window moves down one row block per point. -/
theorem idx_rows0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- So does the result's. -/
theorem idx_rows6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
/-- The other windows stay on their one block. -/
theorem idx_whole1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_whole2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_whole3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_whole4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_whole5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-! ## The host-made operands as the region finds them -/

/-- The features converted to bf16. -/
theorem V_feat (c : Dev nD) : (V m c main_v4 : S10000x128.Idx → EReal) = truncf .bf16 (argX m c) bitsLt_bf16_f32 := by
  dsimp only [V, hostOps0]; after_results
/-- The weight transposed. -/
theorem V_wt (c : Dev nD) : (V m c main_v0 : S128x128.Idx → EReal) = transpose S128x128 [1, 0] (argW m c) transposes_S128x128_S128x128_1_0 := by
  dsimp only [V, hostOps0]; after_results
/-- The bias as one row. -/
theorem V_bias (c : Dev nD) : (V m c main_v1 : S1x128.Idx → EReal) = shapeCast S1x128 (argB m c) shapeCasts_S128_S1x128 := by
  dsimp only [V, hostOps0]; after_results; rfl
/-- The scale as one row. -/
theorem V_scale (c : Dev nD) : (V m c main_v2 : S1x128.Idx → EReal) = shapeCast S1x128 (argG m c) shapeCasts_S128_S1x128 := by
  dsimp only [V, hostOps0]; after_results; rfl
/-- The shift as one row. -/
theorem V_shift (c : Dev nD) : (V m c main_v3 : S1x128.Idx → EReal) = shapeCast S1x128 (argBt m c) shapeCasts_S128_S1x128 := by
  dsimp only [V, hostOps0]; after_results; rfl

/-! ## Each window's block, read as entries of the arguments -/

/-- Local row `p` of the adjacency's block at point `t` is row `400 t + p` of the adjacency. -/
theorem blkA (c : Dev nD) (t : Fin cfg0.N) (p : Fin 400) (l : Fin 10000) (r : Fin 10000) (hr : r.val = t.val * 400 + p.val) :
    iblk m c 0 t (ix2 p l) = argA m c (ix2 r l) := by
  obtain ⟨e0, e1⟩ := idx_rows0 t
  unfold iblk
  rw [View.read_apply]
  show V m c main_arg0 _ = _
  rw [V_main_arg0]
  refine congrArg (argA m c) (funext fun a => Fin.ext ?_)
  match a with
  | ⟨0, _⟩ => show win0_0.index t (0 : Fin 2) * 400 + 1 * p.val = r.val; rw [e0, hr]; omega
  | ⟨1, _⟩ => show win0_0.index t (1 : Fin 2) * 10000 + 1 * l.val = l.val; rw [e1]; omega

/-- Window 1 stages its whole array: its block at any point reads the array at the same index. -/
theorem iblk1_apply (c : Dev nD) (t : Fin cfg0.N) (y : S10000x128.Idx) :
    iblk m c 1 t y = V m c main_v4 y := by
  obtain ⟨e0, e1⟩ := idx_whole1 t
  unfold iblk
  rw [View.read_apply]
  show V m c main_v4 _ = V m c main_v4 y
  refine congrArg (V m c main_v4) (funext fun a => Fin.ext ?_)
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- Window 2 stages its whole array: its block at any point reads the array at the same index. -/
theorem iblk2_apply (c : Dev nD) (t : Fin cfg0.N) (y : S128x128.Idx) :
    iblk m c 2 t y = V m c main_v0 y := by
  obtain ⟨e0, e1⟩ := idx_whole2 t
  unfold iblk
  rw [View.read_apply]
  show V m c main_v0 _ = V m c main_v0 y
  refine congrArg (V m c main_v0) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Window 3 stages its whole array: its block at any point reads the array at the same index. -/
theorem iblk3_apply (c : Dev nD) (t : Fin cfg0.N) (y : S1x128.Idx) :
    iblk m c 3 t y = V m c main_v1 y := by
  obtain ⟨e0, e1⟩ := idx_whole3 t
  unfold iblk
  rw [View.read_apply]
  show V m c main_v1 _ = V m c main_v1 y
  refine congrArg (V m c main_v1) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- Window 4 stages its whole array: its block at any point reads the array at the same index. -/
theorem iblk4_apply (c : Dev nD) (t : Fin cfg0.N) (y : S1x128.Idx) :
    iblk m c 4 t y = V m c main_v2 y := by
  obtain ⟨e0, e1⟩ := idx_whole4 t
  unfold iblk
  rw [View.read_apply]
  show V m c main_v2 _ = V m c main_v2 y
  refine congrArg (V m c main_v2) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Window 5 stages its whole array: its block at any point reads the array at the same index. -/
theorem iblk5_apply (c : Dev nD) (t : Fin cfg0.N) (y : S1x128.Idx) :
    iblk m c 5 t y = V m c main_v3 y := by
  obtain ⟨e0, e1⟩ := idx_whole5 t
  unfold iblk
  rw [View.read_apply]
  show V m c main_v3 _ = V m c main_v3 y
  refine congrArg (V m c main_v3) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem blkX (c : Dev nD) (t : Fin cfg0.N) (l : Fin 10000) (k : Fin 128) :
    iblk m c 1 t (ix2 l k) = argX m c (ix2 l k) := by
  rw [iblk1_apply, V_feat]; rfl

theorem blkWt (c : Dev nD) (t : Fin cfg0.N) (k : Fin 128) (cc : Fin 128) :
    iblk m c 2 t (ix2 k cc) = argW m c (ix2 cc k) := by
  rw [iblk2_apply, V_wt]
  exact transpose_ix2_apply (argW m c) transposes_S128x128_S128x128_1_0 k cc

theorem blkB (c : Dev nD) (t : Fin cfg0.N) (cc : Fin 128) :
    iblk m c 3 t (ix2 (0 : Fin 1) cc) = argB m c (ix1 cc) := by
  rw [iblk3_apply, V_bias]
  exact shapeCast_a_1a_apply (argB m c) shapeCasts_S128_S1x128 0 cc

theorem blkG (c : Dev nD) (t : Fin cfg0.N) (cc : Fin 128) :
    iblk m c 4 t (ix2 (0 : Fin 1) cc) = argG m c (ix1 cc) := by
  rw [iblk4_apply, V_scale]
  exact shapeCast_a_1a_apply (argG m c) shapeCasts_S128_S1x128 0 cc

theorem blkBt (c : Dev nD) (t : Fin cfg0.N) (cc : Fin 128) :
    iblk m c 5 t (ix2 (0 : Fin 1) cc) = argBt m c (ix1 cc) := by
  rw [iblk5_apply, V_shift]
  exact shapeCast_a_1a_apply (argBt m c) shapeCasts_S128_S1x128 0 cc

/-! ## What a point writes back, and the array -/

/-- WHAT POINT `t` WRITES BACK is block `t` of the specification of the arguments. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S400x10000) hz, View.ld_unit_zero (S := S10000x128) hz, View.ld_unit_zero (S := S128x128) hz,
    View.ld_unit_zero (S := S1x128) hz]
  funext j
  obtain ⟨p, q, rfl⟩ : ∃ (p : Fin 400) (q : Fin 128), j = ix2 p q := ⟨j 0, j 1, @eq_ix2 400 128 j⟩
  have hN : cfg0.N = 25 := N_0
  have ht : t.val < 25 := hN ▸ t.isLt
  have hp : p.val < 400 := p.isLt
  obtain ⟨e0, e1⟩ := idx_rows6 t
  obtain ⟨r, hr⟩ : ∃ r : Fin 10000, r.val = t.val * 400 + p.val := ⟨⟨t.val * 400 + p.val, by omega⟩, rfl⟩
  have hemb : ((cfg0.win 6).blk t).view.emb (ix2 p q) = ix2 r q := funext fun a => Fin.ext (by
    match a with
    | ⟨0, _⟩ => show win0_6.index t (0 : Fin 2) * 400 + 1 * p.val = r.val; rw [e0, hr]; omega
    | ⟨1, _⟩ => show win0_6.index t (1 : Fin 2) * 128 + 1 * q.val = q.val; rw [e1]; omega)
  show k0_pay1 (F := Ideal) (iblk m c 0 t) (iblk m c 1 t) (iblk m c 2 t) (iblk m c 3 t) (iblk m c 4 t) (iblk m c 5 t) (ix2 p q)
    = result m c (((cfg0.win 6).blk t).view.emb (ix2 p q))
  rw [hemb]
  refine (pay_apply (iblk m c 0 t) (iblk m c 1 t) (iblk m c 2 t) (iblk m c 3 t) (iblk m c 4 t) (iblk m c 5 t) p q).trans ?_
  show _ = outAt (argA m c) (argX m c) (argW m c) (argB m c) (argG m c) (argBt m c) r q
  unfold outAt
  have h1 : linRow (iblk m c 0 t) (iblk m c 1 t) (iblk m c 2 t) (iblk m c 3 t) p
      = lin (argA m c) (argX m c) (argW m c) (argB m c) r := funext fun cc => by
    unfold linRow lin
    exact congrArg₂ (fun u v : EReal => u + v)
      (Finset.sum_congr rfl fun k _ => congrArg₂ (fun u v : EReal => u * v)
        (Finset.sum_congr rfl fun l _ => congrArg₂ (fun u v : EReal => u * v) (blkA m c t p l r hr) (blkX m c t l k))
        (blkWt m c t k cc))
      (blkB m c t cc)
  have h2 : (fun cc : Fin 128 => (iblk m c 4 t : FVec Ideal S1x128 .f32) (ix2 (0 : Fin 1) cc)) = fun cc => argG m c (ix1 cc) :=
    funext fun cc => blkG m c t cc
  have h3 : (fun cc : Fin 128 => (iblk m c 5 t : FVec Ideal S1x128 .f32) (ix2 (0 : Fin 1) cc)) = fun cc => argBt m c (ix1 cc) :=
    funext fun cc => blkBt m c t cc
  rw [h1, h2, h3]

/-- An index of the result is in point `t`'s block iff each coordinate is in the block's range on its axis. -/
theorem mem_blk (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v5).slice (win0_6.rect t)).set ↔ _
  rw [View.set_slice_whole, Rect.mem_set_unit]
  exact Iff.rfl

/-- THE COVER: row `r` of the result lies in the block of point `r / 400`. -/
theorem cover (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨e0, e1⟩ := idx_rows6 t
  refine ⟨t, flush0_6 t, ?_⟩
  rw [mem_blk]
  intro a
  match a with
  | ⟨0, _⟩ =>
    show win0_6.index t (0 : Fin 2) * 400 ≤ (i 0).val ∧ (i 0).val < win0_6.index t (0 : Fin 2) * 400 + 400
    rw [e0, ht]; omega
  | ⟨1, _⟩ =>
    show win0_6.index t (1 : Fin 2) * 128 ≤ (i 1).val ∧ (i 1).val < win0_6.index t (1 : Fin 2) * 128 + 128
    rw [e1]; omega

/-- THE ARRAY after the run is the specification of the arguments. -/
theorem final (c : Dev nD) : (dats m 0 c).arrAt 6 cfg0.N = result m c :=
  (dats m 0 c).arrAt_eq_of_cover 6 (result m c) (fun t _ => flushed_eq m c t) cover

/-- THE KERNEL'S RUN, READ: every weakly fair execution ends with the result array at the specification of
    the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.GraphConvArray

end
-- ==== Proof.lean ====
/-
  A dense graph convolution layer, fused into one kernel, against its plain reference: equal over the
  extended reals.

  Both programs compute, for a dense adjacency `A` [10000, 10000], features `X` [10000, 128], a linear
  layer `W`, `b` and a layer normalisation's scale and shift,
      out = relu (layernorm ((A X) Wᵀ + b) · scale + shift),
  each row normalised by its own mean and by its own mean squared deviation shifted by ε. The kernel
  walks 25 blocks of 400 rows, and in each block multiplies, projects, normalises and rectifies the
  block's rows; the reference does the same to all 10000 rows at once. Rows never mix, so block by
  block the kernel fills in the same array. The matrix products and the row sums are the same sums
  on both sides, the features' passage through bf16 is the identity on the extended reals, and the
  one difference of spelling — the kernel multiplies by the reciprocal root of the spread, the
  reference divides by its root — is no difference, because the spread (a mean of squares plus a
  positive ε) is positive: `x · rsqrt v = x / sqrt v` for every extended real `x` once `0 < v`, the value
  `⊤` included. No finiteness of the inputs is used.

  The modules: LibRsqrtDiv (that law, and the positivity of a shifted mean of squares);
  LibKeepdimsColumn (a row reduction kept as a column, read at an index); GraphConvSpec (the result
  as one function `G` of the six arguments); GraphConvRef (the reference's operations compose to
  `G`); GraphConvBlock (the kernel's body on one block is `G`'s row normalisation of the block's own
  rows); GraphConvArray (block `t` written back is block `t` of `G`, the blocks cover the array, so
  the kernel's run ends with the array at `G`). Here: the three frames, the empty idealisation
  ledger, and the two runs set side by side.
-/
import proofs.«101320_g33552284516567_cont_8to1_b_1807_12_alg».proof.Defs
import proofs.«101320_g33552284516567_cont_8to1_b_1807_12_alg».proof.Proof.Gen.Kernel
import proofs.«101320_g33552284516567_cont_8to1_b_1807_12_alg».proof.Proof.Gen.Kernel.Skeleton
import proofs.«101320_g33552284516567_cont_8to1_b_1807_12_alg».proof.Proof.Gen.Kernel.Launch
import proofs.«101320_g33552284516567_cont_8to1_b_1807_12_alg».proof.Proof.Gen.Kernel.Points
import proofs.«101320_g33552284516567_cont_8to1_b_1807_12_alg».proof.Proof.Gen.Kernel.Frame
import proofs.«101320_g33552284516567_cont_8to1_b_1807_12_alg».proof.Proof.Gen.KernelIdeal
import proofs.«101320_g33552284516567_cont_8to1_b_1807_12_alg».proof.Proof.Gen.KernelIdeal.Skeleton
import proofs.«101320_g33552284516567_cont_8to1_b_1807_12_alg».proof.Proof.Gen.KernelIdeal.Launch
import proofs.«101320_g33552284516567_cont_8to1_b_1807_12_alg».proof.Proof.Gen.KernelIdeal.Points
import proofs.«101320_g33552284516567_cont_8to1_b_1807_12_alg».proof.Proof.Gen.KernelIdeal.Frame
import proofs.«101320_g33552284516567_cont_8to1_b_1807_12_alg».proof.Proof.Gen.ReferenceIdeal
import proofs.«101320_g33552284516567_cont_8to1_b_1807_12_alg».proof.Proof.Gen.Pre_finite_inputs
import proofs.«101320_g33552284516567_cont_8to1_b_1807_12_alg».proof.Proof.Gen.KernelIdeal.Value
import proofs.«101320_g33552284516567_cont_8to1_b_1807_12_alg».proof.Proof.Gen.ReferenceIdeal.Run
import proofs.«101320_g33552284516567_cont_8to1_b_1807_12_alg».proof.Proof.Gen.ReferenceIdeal.Read
import proofs.«101320_g33552284516567_cont_8to1_b_1807_12_alg».proof.Proof.GraphConvRef
import proofs.«101320_g33552284516567_cont_8to1_b_1807_12_alg».proof.Proof.GraphConvArray
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation: nothing to preserve. -/
theorem preserves : Cert.preserves_Kernel_KernelIdeal := trivial

/-- From memories that agree on the six arguments, the kernel's result array ends at the
    specification `G` of its arguments and the reference's at `G` of its own, which are the same. -/
theorem algebraic : Cert.algebraic_KernelIdeal_ReferenceIdeal := by
  intro m ρ m' ρ' _ hagree
  refine ⟨fun c => Cert.GraphConvArray.result m c, Cert.GraphConvArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.GraphConvRef.ref_eq_G]
  obtain ⟨h0, h1, h2, h3, h4, h5⟩ := hagree c
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
